-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S1048576 : Shape := ⟨1, ![1048576]⟩
abbrev S16777216 : Shape := ⟨1, ![16777216]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S2097152 .f32) (main_arg1 : FVec F S1048576 .f32) (main_arg2 : FVec F S1048576 .f32) (main_arg3 : IVec S16777216 32) (main_arg4 : IVec S16777216 32) : IVec S_ 1 :=
  let main_v0 : FVec F S2097152 .f32 := Host.absf main_arg0
  let main_cst : FVec F S_ .f32 := constant S_ .f32 0x7F800000#32
  let main_v1 : FVec F S2097152 .f32 := broadcastInDim S2097152 ![] bcast_S_S2097152 main_cst
  let main_v2 : IVec S2097152 1 := cmpf .olt main_v0 main_v1
  let main_c : IVec S_ 1 := constantI S_ 1 1#1
  let main_v3 : IVec S_ 1 := (fun x v => Host.reduce IntOp.andi x v reducesTo_S2097152_S_d0 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  main_v13
-- ==== Kernel.lean ====
abbrev S2097152 : Shape := ⟨1, ![2097152]⟩
abbrev S1048576 : Shape := ⟨1, ![1048576]⟩
abbrev S16777216 : Shape := ⟨1, ![16777216]⟩
abbrev S_ : Shape := ⟨0, ![]⟩
abbrev S16777216x1 : Shape := ⟨2, ![16777216, 1]⟩
abbrev S16384x1024 : Shape := ⟨2, ![16384, 1024]⟩
abbrev S512x1024 : Shape := ⟨2, ![512, 1024]⟩

abbrev nBuf : Space → Nat
  | .hbm => 105
  | .vmem => 12
  | .smem => 0
  | _ => 0

abbrev bufTy : (tb : Table) → Fin (tcTables nBuf tb) → BufTy
  | .hbm, ⟨0, _⟩ => ⟨S2097152, .f32⟩
  | .hbm, ⟨1, _⟩ => ⟨S1048576, .f32⟩
  | .hbm, ⟨2, _⟩ => ⟨S1048576, .f32⟩
  | .hbm, ⟨3, _⟩ => ⟨S16777216, .i32⟩
  | .hbm, ⟨4, _⟩ => ⟨S16777216, .i32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576, .f32⟩
  | .hbm, ⟨9, _⟩ => ⟨S1048576, .f32⟩
  | .hbm, ⟨10, _⟩ => ⟨S1048576, .f32⟩
  | .hbm, ⟨11, _⟩ => ⟨S_, .f32⟩
  | .hbm, ⟨12, _⟩ => ⟨S1048576, .f32⟩
  | .hbm, ⟨13, _⟩ => ⟨S1048576, .f32⟩
  | .hbm, ⟨14, _⟩ => ⟨S1048576, .f32⟩
  | .hbm, ⟨15, _⟩ => ⟨S_, .i32⟩
  | .hbm, ⟨16, _⟩ => ⟨S16777216, .i32⟩
  | .hbm, ⟨17, _⟩ => ⟨S16777216, .i1⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S16777216, .i32⟩
  | .hbm, ⟨22, _⟩ => ⟨S16777216x1, .i32⟩
  | .hbm, ⟨23, _⟩ => ⟨S16777216, .f32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S16777216, .f32⟩
  | .hbm, ⟨33, _⟩ => ⟨S_, .i32⟩
  | .hbm, ⟨34, _⟩ => ⟨S16777216, .i32⟩
  | .hbm, ⟨35, _⟩ => ⟨S16777216, .i1⟩
  | .hbm, ⟨36, _⟩ => ⟨S_, .i32⟩
  | .hbm, ⟨37, _⟩ => ⟨S16777216, .i32⟩
  | .hbm, ⟨38, _⟩ => ⟨S16777216, .i32⟩
  | .hbm, ⟨39, _⟩ => ⟨S16777216, .i32⟩
  | .hbm, ⟨40, _⟩ => ⟨S16777216x1, .i32⟩
  | .hbm, ⟨41, _⟩ => ⟨S16777216, .f32⟩
  | .hbm, ⟨42, _⟩ => ⟨S_, .i32⟩
  | .hbm, ⟨43, _⟩ => ⟨S16777216, .i32⟩
  | .hbm, ⟨44, _⟩ => ⟨S16777216, .i1⟩
  | .hbm, ⟨45, _⟩ => ⟨S_, .i32⟩
  | .hbm, ⟨46, _⟩ => ⟨S16777216, .i32⟩
  | .hbm, ⟨47, _⟩ => ⟨S16777216, .i32⟩
  | .hbm, ⟨48, _⟩ => ⟨S16777216, .i32⟩
  | .hbm, ⟨49, _⟩ => ⟨S16777216x1, .i32⟩
  | .hbm, ⟨50, _⟩ => ⟨S16777216, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16777216, .f32⟩
  | .hbm, ⟨58, _⟩ => ⟨S16777216, .f32⟩
  | .hbm, ⟨59, _⟩ => ⟨S_, .f32⟩
  | .hbm, ⟨60, _⟩ => ⟨S1048576, .f32⟩
  | .hbm, ⟨61, _⟩ => ⟨S_, .i32⟩
  | .hbm, ⟨62, _⟩ => ⟨S16777216, .i32⟩
  | .hbm, ⟨63, _⟩ => ⟨S16777216, .i1⟩
  | .hbm, ⟨64, _⟩ => ⟨S_, .i32⟩
  | .hbm, ⟨65, _⟩ => ⟨S16777216, .i32⟩
  | .hbm, ⟨66, _⟩ => ⟨S16777216, .i32⟩
  | .hbm, ⟨67, _⟩ => ⟨S16777216, .i32⟩
  | .hbm, ⟨68, _⟩ => ⟨S16777216x1, .i32⟩
  | .hbm, ⟨69, _⟩ => ⟨S1048576, .f32⟩
  | .hbm, ⟨70, _⟩ => ⟨S16777216, .f32⟩
  | .hbm, ⟨71, _⟩ => ⟨S_, .i32⟩
  | .hbm, ⟨72, _⟩ => ⟨S16777216, .i32⟩
  | .hbm, ⟨73, _⟩ => ⟨S16777216, .i1⟩
  | .hbm, ⟨74, _⟩ => ⟨S_, .i32⟩
  | .hbm, ⟨75, _⟩ => ⟨S16777216, .i32⟩
  | .hbm, ⟨76, _⟩ => ⟨S16777216, .i32⟩
  | .hbm, ⟨77, _⟩ => ⟨S16777216, .i32⟩
  | .hbm, ⟨78, _⟩ => ⟨S16777216x1, .i32⟩
  | .hbm, ⟨79, _⟩ => ⟨S1048576, .f32⟩
  | .hbm, ⟨80, _⟩ => ⟨S_, .f32⟩
  | .hbm, ⟨81, _⟩ => ⟨S1048576, .f32⟩
  | .hbm, ⟨82, _⟩ => ⟨S_, .i32⟩
  | .hbm, ⟨83, _⟩ => ⟨S16777216, .i32⟩
  | .hbm, ⟨84, _⟩ => ⟨S16777216, .i1⟩
  | .hbm, ⟨85, _⟩ => ⟨S_, .i32⟩
  | .hbm, ⟨86, _⟩ => ⟨S16777216, .i32⟩
  | .hbm, ⟨87, _⟩ => ⟨S16777216, .i32⟩
  | .hbm, ⟨88, _⟩ => ⟨S16777216, .i32⟩
  | .hbm, ⟨89, _⟩ => ⟨S16777216x1, .i32⟩
  | .hbm, ⟨90, _⟩ => ⟨S1048576, .f32⟩
  | .hbm, ⟨91, _⟩ => ⟨S16777216, .f32⟩
  | .hbm, ⟨92, _⟩ => ⟨S_, .i32⟩
  | .hbm, ⟨93, _⟩ => ⟨S16777216, .i32⟩
  | .hbm, ⟨94, _⟩ => ⟨S16777216, .i1⟩
  | .hbm, ⟨95, _⟩ => ⟨S_, .i32⟩
  | .hbm, ⟨96, _⟩ => ⟨S16777216, .i32⟩
  | .hbm, ⟨97, _⟩ => ⟨S16777216, .i32⟩
  | .hbm, ⟨98, _⟩ => ⟨S16777216, .i32⟩
  | .hbm, ⟨99, _⟩ => ⟨S16777216x1, .i32⟩
  | .hbm, ⟨100, _⟩ => ⟨S1048576, .f32⟩
  | .hbm, ⟨101, _⟩ => ⟨S2097152, .f32⟩
  | .hbm, ⟨102, _⟩ => ⟨S2097152, .f32⟩
  | .hbm, ⟨103, _⟩ => ⟨S_, .f32⟩
  | .hbm, ⟨104, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2097152_S1048576_0 : S2097152.Slices ![0] S1048576
  bcast_S_S1048576 : S_.BroadcastsInDim S1048576 (![] : Fin 0 → Fin S1048576.rank)
  slices_S2097152_S1048576_1048576 : S2097152.Slices ![1048576] S1048576
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S16384x1024 : S16777216.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S16384x1024_S16777216 : S16384x1024.ShapeCasts S16777216
  concatenates_S1048576_S1048576_S2097152_d0 : Shape.Concatenates [S1048576, S1048576] S2097152 0
  reducesTo_S2097152_S_d0 : S2097152.ReducesTo [0] S_
  h_S_ : 0 < S_.numel
  gather_S1048576_S16777216x1_S16777216_n_0_n_n_0_1_1_wf : GatherDims.WF S1048576 S16777216x1 S16777216 [] [0] [] [0] [] 1 ![1]
  scatter_S1048576_S16777216x1_S16777216_n_0_0_1_wf : ScatterDims.WF S1048576 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .f32 = 32 ∨ (Rect.block (s := S16384x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf
def scatter_S1048576_S16777216x1_S16777216_n_0_0_1 : ScatterDims S1048576 S16777216x1 S16777216 where
  updateWindowDims := []
  insertedWindowDims := [0]
  scatterDimsToOperandDims := [0]
  indexVectorDim := 1
  wf := scatter_S1048576_S16777216x1_S16777216_n_0_0_1_wf

abbrev win0_0 : Pipeline.Window sig grid0 :=
  Pipeline.Window.ofSpec (Memref.whole main_v36) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152 : Shape := ⟨1, ![2097152]⟩
abbrev S1048576 : Shape := ⟨1, ![1048576]⟩
abbrev S16777216 : Shape := ⟨1, ![16777216]⟩
abbrev S_ : Shape := ⟨0, ![]⟩
abbrev S16777216x1 : Shape := ⟨2, ![16777216, 1]⟩

abbrev nBuf : Space → Nat
  | .hbm => 127
  | .vmem => 0
  | .smem => 0
  | _ => 0

abbrev bufTy : (tb : Table) → Fin (tcTables nBuf tb) → BufTy
  | .hbm, ⟨0, _⟩ => ⟨S2097152, .f32⟩
  | .hbm, ⟨1, _⟩ => ⟨S1048576, .f32⟩
  | .hbm, ⟨2, _⟩ => ⟨S1048576, .f32⟩
  | .hbm, ⟨3, _⟩ => ⟨S16777216, .i32⟩
  | .hbm, ⟨4, _⟩ => ⟨S16777216, .i32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576, .f32⟩
  | .hbm, ⟨9, _⟩ => ⟨S1048576, .f32⟩
  | .hbm, ⟨10, _⟩ => ⟨S1048576, .f32⟩
  | .hbm, ⟨11, _⟩ => ⟨S_, .f32⟩
  | .hbm, ⟨12, _⟩ => ⟨S1048576, .f32⟩
  | .hbm, ⟨13, _⟩ => ⟨S1048576, .f32⟩
  | .hbm, ⟨14, _⟩ => ⟨S1048576, .f32⟩
  | .hbm, ⟨15, _⟩ => ⟨S_, .i32⟩
  | .hbm, ⟨16, _⟩ => ⟨S16777216, .i32⟩
  | .hbm, ⟨17, _⟩ => ⟨S16777216, .i1⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S16777216, .i32⟩
  | .hbm, ⟨22, _⟩ => ⟨S16777216x1, .i32⟩
  | .hbm, ⟨23, _⟩ => ⟨S16777216, .f32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S_, .i32⟩
  | .hbm, ⟨28, _⟩ => ⟨S16777216, .i32⟩
  | .hbm, ⟨29, _⟩ => ⟨S16777216, .i32⟩
  | .hbm, ⟨30, _⟩ => ⟨S16777216, .i32⟩
  | .hbm, ⟨31, _⟩ => ⟨S16777216x1, .i32⟩
  | .hbm, ⟨32, _⟩ => ⟨S16777216, .f32⟩
  | .hbm, ⟨33, _⟩ => ⟨S16777216, .f32⟩
  | .hbm, ⟨34, _⟩ => ⟨S_, .i32⟩
  | .hbm, ⟨35, _⟩ => ⟨S16777216, .i32⟩
  | .hbm, ⟨36, _⟩ => ⟨S16777216, .i1⟩
  | .hbm, ⟨37, _⟩ => ⟨S_, .i32⟩
  | .hbm, ⟨38, _⟩ => ⟨S16777216, .i32⟩
  | .hbm, ⟨39, _⟩ => ⟨S16777216, .i32⟩
  | .hbm, ⟨40, _⟩ => ⟨S16777216, .i32⟩
  | .hbm, ⟨41, _⟩ => ⟨S16777216x1, .i32⟩
  | .hbm, ⟨42, _⟩ => ⟨S16777216, .f32⟩
  | .hbm, ⟨43, _⟩ => ⟨S_, .i32⟩
  | .hbm, ⟨44, _⟩ => ⟨S16777216, .i32⟩
  | .hbm, ⟨45, _⟩ => ⟨S16777216, .i1⟩
  | .hbm, ⟨46, _⟩ => ⟨S_, .i32⟩
  | .hbm, ⟨47, _⟩ => ⟨S16777216, .i32⟩
  | .hbm, ⟨48, _⟩ => ⟨S16777216, .i32⟩
  | .hbm, ⟨49, _⟩ => ⟨S16777216, .i32⟩
  | .hbm, ⟨50, _⟩ => ⟨S16777216x1, .i32⟩
  | .hbm, ⟨51, _⟩ => ⟨S16777216, .f32⟩
  | .hbm, ⟨52, _⟩ => ⟨S16777216, .f32⟩
  | .hbm, ⟨53, _⟩ => ⟨S16777216, .f32⟩
  | .hbm, ⟨54, _⟩ => ⟨S_, .f32⟩
  | .hbm, ⟨55, _⟩ => ⟨S16777216, .f32⟩
  | .hbm, ⟨56, _⟩ => ⟨S16777216, .i1⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .i1⟩
  | .hbm, ⟨61, _⟩ => ⟨S16777216, .i1⟩
  | .hbm, ⟨62, _⟩ => ⟨S16777216, .f32⟩
  | .hbm, ⟨63, _⟩ => ⟨S16777216, .f32⟩
  | .hbm, ⟨64, _⟩ => ⟨S16777216, .f32⟩
  | .hbm, ⟨65, _⟩ => ⟨S_, .f32⟩
  | .hbm, ⟨66, _⟩ => ⟨S16777216, .f32⟩
  | .hbm, ⟨67, _⟩ => ⟨S16777216, .f32⟩
  | .hbm, ⟨68, _⟩ => ⟨S_, .f32⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S_, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S16777216, .f32⟩
  | .hbm, ⟨77, _⟩ => ⟨S_, .f32⟩
  | .hbm, ⟨78, _⟩ => ⟨S_, .f32⟩
  | .hbm, ⟨79, _⟩ => ⟨S16777216, .f32⟩
  | .hbm, ⟨80, _⟩ => ⟨S16777216, .f32⟩
  | .hbm, ⟨81, _⟩ => ⟨S_, .f32⟩
  | .hbm, ⟨82, _⟩ => ⟨S1048576, .f32⟩
  | .hbm, ⟨83, _⟩ => ⟨S_, .i32⟩
  | .hbm, ⟨84, _⟩ => ⟨S16777216, .i32⟩
  | .hbm, ⟨85, _⟩ => ⟨S16777216, .i1⟩
  | .hbm, ⟨86, _⟩ => ⟨S_, .i32⟩
  | .hbm, ⟨87, _⟩ => ⟨S16777216, .i32⟩
  | .hbm, ⟨88, _⟩ => ⟨S16777216, .i32⟩
  | .hbm, ⟨89, _⟩ => ⟨S16777216, .i32⟩
  | .hbm, ⟨90, _⟩ => ⟨S16777216x1, .i32⟩
  | .hbm, ⟨91, _⟩ => ⟨S1048576, .f32⟩
  | .hbm, ⟨92, _⟩ => ⟨S16777216, .f32⟩
  | .hbm, ⟨93, _⟩ => ⟨S_, .i32⟩
  | .hbm, ⟨94, _⟩ => ⟨S16777216, .i32⟩
  | .hbm, ⟨95, _⟩ => ⟨S16777216, .i1⟩
  | .hbm, ⟨96, _⟩ => ⟨S_, .i32⟩
  | .hbm, ⟨97, _⟩ => ⟨S16777216, .i32⟩
  | .hbm, ⟨98, _⟩ => ⟨S16777216, .i32⟩
  | .hbm, ⟨99, _⟩ => ⟨S16777216, .i32⟩
  | .hbm, ⟨100, _⟩ => ⟨S16777216x1, .i32⟩
  | .hbm, ⟨101, _⟩ => ⟨S1048576, .f32⟩
  | .hbm, ⟨102, _⟩ => ⟨S_, .f32⟩
  | .hbm, ⟨103, _⟩ => ⟨S1048576, .f32⟩
  | .hbm, ⟨104, _⟩ => ⟨S_, .i32⟩
  | .hbm, ⟨105, _⟩ => ⟨S16777216, .i32⟩
  | .hbm, ⟨106, _⟩ => ⟨S16777216, .i1⟩
  | .hbm, ⟨107, _⟩ => ⟨S_, .i32⟩
  | .hbm, ⟨108, _⟩ => ⟨S16777216, .i32⟩
  | .hbm, ⟨109, _⟩ => ⟨S16777216, .i32⟩
  | .hbm, ⟨110, _⟩ => ⟨S16777216, .i32⟩
  | .hbm, ⟨111, _⟩ => ⟨S16777216x1, .i32⟩
  | .hbm, ⟨112, _⟩ => ⟨S1048576, .f32⟩
  | .hbm, ⟨113, _⟩ => ⟨S16777216, .f32⟩
  | .hbm, ⟨114, _⟩ => ⟨S_, .i32⟩
  | .hbm, ⟨115, _⟩ => ⟨S16777216, .i32⟩
  | .hbm, ⟨116, _⟩ => ⟨S16777216, .i1⟩
  | .hbm, ⟨117, _⟩ => ⟨S_, .i32⟩
  | .hbm, ⟨118, _⟩ => ⟨S16777216, .i32⟩
  | .hbm, ⟨119, _⟩ => ⟨S16777216, .i32⟩
  | .hbm, ⟨120, _⟩ => ⟨S16777216, .i32⟩
  | .hbm, ⟨121, _⟩ => ⟨S16777216x1, .i32⟩
  | .hbm, ⟨122, _⟩ => ⟨S1048576, .f32⟩
  | .hbm, ⟨123, _⟩ => ⟨S2097152, .f32⟩
  | .hbm, ⟨124, _⟩ => ⟨S2097152, .f32⟩
  | .hbm, ⟨125, _⟩ => ⟨S_, .f32⟩
  | .hbm, ⟨126, _⟩ => ⟨S_, .f32⟩
  | _, _ => ⟨S2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_call0_v0 : Ref sig .tc := ⟨.hbm, 73, rfl⟩
abbrev main_call0_v1 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_c_15 : Ref sig .tc := ⟨.hbm, 83, rfl⟩
abbrev main_v57 : Ref sig .tc := ⟨.hbm, 84, rfl⟩
abbrev main_v58 : Ref sig .tc := ⟨.hbm, 85, rfl⟩
abbrev main_c_16 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_17 : Ref sig .tc := ⟨.hbm, 93, rfl⟩
abbrev main_v65 : Ref sig .tc := ⟨.hbm, 94, rfl⟩
abbrev main_v66 : Ref sig .tc := ⟨.hbm, 95, rfl⟩
abbrev main_c_18 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_c_20 : Ref sig .tc := ⟨.hbm, 104, rfl⟩
abbrev main_v73 : Ref sig .tc := ⟨.hbm, 105, rfl⟩
abbrev main_v74 : Ref sig .tc := ⟨.hbm, 106, rfl⟩
abbrev main_c_21 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_22 : Ref sig .tc := ⟨.hbm, 114, rfl⟩
abbrev main_v81 : Ref sig .tc := ⟨.hbm, 115, rfl⟩
abbrev main_v82 : Ref sig .tc := ⟨.hbm, 116, rfl⟩
abbrev main_c_23 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_24 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2097152_S1048576_0 : S2097152.Slices ![0] S1048576
  bcast_S_S1048576 : S_.BroadcastsInDim S1048576 (![] : Fin 0 → Fin S1048576.rank)
  slices_S2097152_S1048576_1048576 : S2097152.Slices ![1048576] S1048576
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S1048576_S1048576_S2097152_d0 : Shape.Concatenates [S1048576, S1048576] S2097152 0
  reducesTo_S2097152_S_d0 : S2097152.ReducesTo [0] S_
  h_S_ : 0 < S_.numel
  gather_S1048576_S16777216x1_S16777216_n_0_n_n_0_1_1_wf : GatherDims.WF S1048576 S16777216x1 S16777216 [] [0] [] [0] [] 1 ![1]
  scatter_S1048576_S16777216x1_S16777216_n_0_0_1_wf : ScatterDims.WF S1048576 S16777216x1 S16777216 [] [0] [0] 1

variable [Facts₀]

def gather_S1048576_S16777216x1_S16777216_n_0_n_n_0_1_1 : GatherDims S1048576 S16777216x1 S16777216 where
  offsetDims := []
  collapsedSliceDims := [0]
  operandBatchingDims := []
  startIndicesBatchingDims := []
  startIndexMap := [0]
  indexVectorDim := 1
  sliceSizes := ![1]
  wf := gather_S1048576_S16777216x1_S16777216_n_0_n_n_0_1_1_wf
def scatter_S1048576_S16777216x1_S16777216_n_0_0_1 : ScatterDims S1048576 S16777216x1 S16777216 where
  updateWindowDims := []
  insertedWindowDims := [0]
  scatterDimsToOperandDims := [0]
  indexVectorDim := 1
  wf := scatter_S1048576_S16777216x1_S16777216_n_0_0_1_wf

class Facts : Prop extends Facts₀ where

variable [Facts]
-- ==== Proof.PairForce.lean ====
/-
  The force one candidate pair puts on its first endpoint, as a function of the four centre coordinates the pair
  reads: with dx = xs - xd and dy = ys - yd,

      pushX = dx * (1/2) / (dx*dx + dy*dy + eps)   if |dx| < 16 and |dy| < 16,   else 0,

  and pushY the same with dy for the leading factor; eps is the single-precision word nearest 0.01 and stays a
  word on both sides, never evaluated. Both programs apply exactly this function entry by entry: one to a
  [16384, 1024] arrangement of the 16777216 pairs, the other to the flat list.
-/
import Idealize.ShloMosaic.PureOps.Ideal

noncomputable section

namespace Cert.PairForce

open Idealize.ShloMosaic

variable {F : FTy → Type} [FloatOps F]

/-- The pair repels only when both displacements are inside the 16-unit window. -/
def near (dx dy : F .f32) : BitVec 1 :=
  IntOp.andi (FloatOps.cmpf .olt (FloatOps.absf dx) (FloatOps.ofBits .f32 0x41800000#32))
    (FloatOps.cmpf .olt (FloatOps.absf dy) (FloatOps.ofBits .f32 0x41800000#32))

/-- Half the reciprocal of the regularised squared distance, (1/2) / (dx*dx + dy*dy + eps). -/
def halfInv (dx dy : F .f32) : F .f32 :=
  FloatOps.divf (FloatOps.ofBits .f32 0x3F000000#32)
    (FloatOps.addf (FloatOps.addf (FloatOps.mulf dx dx) (FloatOps.mulf dy dy)) (FloatOps.ofBits .f32 0x3C23D70A#32))

/-- The x component of the pair's force, from the centres (xs, xd, ys, yd). -/
def pushX (xs xd ys yd : F .f32) : F .f32 :=
  Scalar.select (near (FloatOps.subf xs xd) (FloatOps.subf ys yd))
    (FloatOps.mulf (FloatOps.subf xs xd) (halfInv (FloatOps.subf xs xd) (FloatOps.subf ys yd)))
    (FloatOps.ofBits .f32 0x00000000#32)

/-- The y component. -/
def pushY (xs xd ys yd : F .f32) : F .f32 :=
  Scalar.select (near (FloatOps.subf xs xd) (FloatOps.subf ys yd))
    (FloatOps.mulf (FloatOps.subf ys yd) (halfInv (FloatOps.subf xs xd) (FloatOps.subf ys yd)))
    (FloatOps.ofBits .f32 0x00000000#32)

end Cert.PairForce

end
-- ==== Proof.KernelBlocks.lean ====
/-
  What the pair-force kernel leaves in its two result arrays, as whole-array functions of the four arrays it
  reads. The 16777216 pairs are laid out as a [16384, 1024] table and the grid's 32 points each take 512
  whole rows of it: point t reads rows 512 t .. 512 t + 511 of the four operands and writes the same rows of
  the two results, each entry of a result being pushX (resp. pushY) of the four operand entries at the same
  place. The 32 row bands tile the table, so after the run result 0 is pushX and result 1 is pushY of the
  operands entry by entry, on the whole table.
-/
import proofs.«123012_j40604620816577_1_alg».proof.Proof.Gen.KernelIdeal.Frame
import proofs.«123012_j40604620816577_1_alg».proof.Proof.PairForce
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Cert.PairForce

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The x force of every pair of a table of pairs. -/
abbrev tableX (xs xd ys yd : S16384x1024.Idx → Elt F .f32) : S16384x1024.Idx → Elt F .f32 :=
  fun i => pushX (xs i) (xd i) (ys i) (yd i)

/-- The y force of every pair of a table of pairs. -/
abbrev tableY (xs xd ys yd : S16384x1024.Idx → Elt F .f32) : S16384x1024.Idx → Elt F .f32 :=
  fun i => pushY (xs i) (xd i) (ys i) (yd i)

/-- On a band of 512 rows the body's first stored value is pushX of the four loaded bands, entry by entry:
    the body's casts are between equal shapes, and every other operation acts entry by entry. -/
theorem bandX (x0 x1 x2 x3 : Vec F S512x1024 .f32) :
    k0_pay5 x0 x1 x2 x3 = fun j => pushX (x0 j) (x1 j) (x2 j) (x3 j) := by
  unfold k0_pay5 k0_pay4 k0_pay3 k0_pay2 k0_pay1
  simp only [shapeCast_self]
  rfl

/-- The second stored value is pushY of the same bands. -/
theorem bandY (x0 x1 x2 x3 : Vec F S512x1024 .f32) :
    k0_pay6 x0 x1 x2 x3 = fun j => pushY (x0 j) (x1 j) (x2 j) (x3 j) := by
  unfold k0_pay6 k0_pay4 k0_pay3 k0_pay2 k0_pay1
  simp only [shapeCast_self]
  rfl

/-- All six windows move together: at point t each takes the band of rows numbered by result 0's row-band
    index, which stays below 32, and the only column band. -/
theorem bands4 : ∀ t : Fin cfg0.N, win0_0.index t (0 : Fin 2) = win0_4.index t (0 : Fin 2)
    ∧ win0_0.index t (1 : Fin 2) = win0_4.index t (1 : Fin 2)
    ∧ win0_1.index t (0 : Fin 2) = win0_4.index t (0 : Fin 2)
    ∧ win0_1.index t (1 : Fin 2) = win0_4.index t (1 : Fin 2)
    ∧ win0_2.index t (0 : Fin 2) = win0_4.index t (0 : Fin 2)
    ∧ win0_2.index t (1 : Fin 2) = win0_4.index t (1 : Fin 2)
    ∧ win0_3.index t (0 : Fin 2) = win0_4.index t (0 : Fin 2)
    ∧ win0_3.index t (1 : Fin 2) = win0_4.index t (1 : Fin 2)
    ∧ win0_4.index t (0 : Fin 2) ≤ 31 ∧ win0_4.index t (1 : Fin 2) ≤ 0 :=
  (by decide +kernel : ∀ t : Fin grid0.N, _)

theorem bands5 : ∀ t : Fin cfg0.N, win0_0.index t (0 : Fin 2) = win0_5.index t (0 : Fin 2)
    ∧ win0_0.index t (1 : Fin 2) = win0_5.index t (1 : Fin 2)
    ∧ win0_1.index t (0 : Fin 2) = win0_5.index t (0 : Fin 2)
    ∧ win0_1.index t (1 : Fin 2) = win0_5.index t (1 : Fin 2)
    ∧ win0_2.index t (0 : Fin 2) = win0_5.index t (0 : Fin 2)
    ∧ win0_2.index t (1 : Fin 2) = win0_5.index t (1 : Fin 2)
    ∧ win0_3.index t (0 : Fin 2) = win0_5.index t (0 : Fin 2)
    ∧ win0_3.index t (1 : Fin 2) = win0_5.index t (1 : Fin 2)
    ∧ win0_5.index t (0 : Fin 2) ≤ 31 ∧ win0_5.index t (1 : Fin 2) ≤ 0 :=
  (by decide +kernel : ∀ t : Fin grid0.N, _)

/-- Every row band is some point's. -/
theorem onto4 : ∀ q : Fin 32, ∃ t : Fin cfg0.N, win0_4.index t = ![q.val, 0] :=
  (by decide +kernel : ∀ q : Fin 32, ∃ t : Fin grid0.N, win0_4.index t = ![q.val, 0])

theorem onto5 : ∀ q : Fin 32, ∃ t : Fin cfg0.N, win0_5.index t = ![q.val, 0] :=
  (by decide +kernel : ∀ q : Fin 32, ∃ t : Fin grid0.N, win0_5.index t = ![q.val, 0])

set_option maxHeartbeats 2000000 in
/-- What point t writes back to result 0 is its band of the x-force table of the operands as the region
    finds them. -/
theorem flushed4_eq (c : Dev nD) (t : Fin cfg0.N) :
    (dats m 0 c).flushed 4 t = ((cfg0.win 4).blk t).view.read (Elt F)
      (tableX (V m c main_v36) (V m c main_v37) (V m c main_v38) (V m c main_v39)) := by
  show (cfg0.win 4).cut (grid0.coords t) ((dats m 0 c).after 4 t) = _
  rw [after0_4]
  unfold out0_4
  rw [View.canon_unit_zero origin]
  simp only [View.ld_unit_zero (S := S512x1024) origin]
  rw [bandX]
  obtain ⟨e00, e01, e10, e11, e20, e21, e30, e31, -, -⟩ := bands4 t
  funext j
  have h0 : ((cfg0.win 0).blk t).view.emb j = ((cfg0.win 4).blk t).view.emb j := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * (j 1).val = win0_4.index t (1 : Fin 2) * 1024 + 1 * (j 1).val; omega
  have g0 : iblk m c 0 t j = V m c main_v36 (((cfg0.win 4).blk t).view.emb j) := by
    show V m c main_v36 (((cfg0.win 0).blk t).view.emb j) = _
    rw [h0]
  have h1 : ((cfg0.win 1).blk t).view.emb j = ((cfg0.win 4).blk t).view.emb j := by
    funext a; apply Fin.ext
    match a with
    | ⟨0, _⟩ => show win0_1.index t (0 : Fin 2) * 512 + 1 * (j 0).val = win0_4.index t (0 : Fin 2) * 512 + 1 * (j 0).val; omega
    | ⟨1, _⟩ => show win0_1.index t (1 : Fin 2) * 1024 + 1 * (j 1).val = win0_4.index t (1 : Fin 2) * 1024 + 1 * (j 1).val; omega
  have g1 : iblk m c 1 t j = V m c main_v37 (((cfg0.win 4).blk t).view.emb j) := by
    show V m c main_v37 (((cfg0.win 1).blk t).view.emb j) = _
    rw [h1]
  have h2 : ((cfg0.win 2).blk t).view.emb j = ((cfg0.win 4).blk t).view.emb j := by
    funext a; apply Fin.ext
    match a with
    | ⟨0, _⟩ => show win0_2.index t (0 : Fin 2) * 512 + 1 * (j 0).val = win0_4.index t (0 : Fin 2) * 512 + 1 * (j 0).val; omega
    | ⟨1, _⟩ => show win0_2.index t (1 : Fin 2) * 1024 + 1 * (j 1).val = win0_4.index t (1 : Fin 2) * 1024 + 1 * (j 1).val; omega
  have g2 : iblk m c 2 t j = V m c main_v38 (((cfg0.win 4).blk t).view.emb j) := by
    show V m c main_v38 (((cfg0.win 2).blk t).view.emb j) = _
    rw [h2]
  have h3 : ((cfg0.win 3).blk t).view.emb j = ((cfg0.win 4).blk t).view.emb j := by
    funext a; apply Fin.ext
    match a with
    | ⟨0, _⟩ => show win0_3.index t (0 : Fin 2) * 512 + 1 * (j 0).val = win0_4.index t (0 : Fin 2) * 512 + 1 * (j 0).val; omega
    | ⟨1, _⟩ => show win0_3.index t (1 : Fin 2) * 1024 + 1 * (j 1).val = win0_4.index t (1 : Fin 2) * 1024 + 1 * (j 1).val; omega
  have g3 : iblk m c 3 t j = V m c main_v39 (((cfg0.win 4).blk t).view.emb j) := by
    show V m c main_v39 (((cfg0.win 3).blk t).view.emb j) = _
    rw [h3]
  have key : pushX (F := F) (iblk m c 0 t j) (iblk m c 1 t j) (iblk m c 2 t j) (iblk m c 3 t j)
      = tableX (V m c main_v36) (V m c main_v37) (V m c main_v38) (V m c main_v39) (((cfg0.win 4).blk t).view.emb j) := by
    rw [g0, g1, g2, g3]
  exact key

set_option maxHeartbeats 2000000 in
/-- What point t writes back to result 1 is its band of the y-force table. -/
theorem flushed5_eq (c : Dev nD) (t : Fin cfg0.N) :
    (dats m 0 c).flushed 5 t = ((cfg0.win 5).blk t).view.read (Elt F)
      (tableY (V m c main_v36) (V m c main_v37) (V m c main_v38) (V m c main_v39)) := by
  show (cfg0.win 5).cut (grid0.coords t) ((dats m 0 c).after 5 t) = _
  rw [after0_5]
  unfold out0_5
  rw [View.canon_unit_zero origin]
  simp only [View.ld_unit_zero (S := S512x1024) origin]
  rw [bandY]
  obtain ⟨e00, e01, e10, e11, e20, e21, e30, e31, -, -⟩ := bands5 t
  funext j
  have h0 : ((cfg0.win 0).blk t).view.emb j = ((cfg0.win 5).blk t).view.emb j := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * (j 1).val = win0_5.index t (1 : Fin 2) * 1024 + 1 * (j 1).val; omega
  have g0 : iblk m c 0 t j = V m c main_v36 (((cfg0.win 5).blk t).view.emb j) := by
    show V m c main_v36 (((cfg0.win 0).blk t).view.emb j) = _
    rw [h0]
  have h1 : ((cfg0.win 1).blk t).view.emb j = ((cfg0.win 5).blk t).view.emb j := by
    funext a; apply Fin.ext
    match a with
    | ⟨0, _⟩ => show win0_1.index t (0 : Fin 2) * 512 + 1 * (j 0).val = win0_5.index t (0 : Fin 2) * 512 + 1 * (j 0).val; omega
    | ⟨1, _⟩ => show win0_1.index t (1 : Fin 2) * 1024 + 1 * (j 1).val = win0_5.index t (1 : Fin 2) * 1024 + 1 * (j 1).val; omega
  have g1 : iblk m c 1 t j = V m c main_v37 (((cfg0.win 5).blk t).view.emb j) := by
    show V m c main_v37 (((cfg0.win 1).blk t).view.emb j) = _
    rw [h1]
  have h2 : ((cfg0.win 2).blk t).view.emb j = ((cfg0.win 5).blk t).view.emb j := by
    funext a; apply Fin.ext
    match a with
    | ⟨0, _⟩ => show win0_2.index t (0 : Fin 2) * 512 + 1 * (j 0).val = win0_5.index t (0 : Fin 2) * 512 + 1 * (j 0).val; omega
    | ⟨1, _⟩ => show win0_2.index t (1 : Fin 2) * 1024 + 1 * (j 1).val = win0_5.index t (1 : Fin 2) * 1024 + 1 * (j 1).val; omega
  have g2 : iblk m c 2 t j = V m c main_v38 (((cfg0.win 5).blk t).view.emb j) := by
    show V m c main_v38 (((cfg0.win 2).blk t).view.emb j) = _
    rw [h2]
  have h3 : ((cfg0.win 3).blk t).view.emb j = ((cfg0.win 5).blk t).view.emb j := by
    funext a; apply Fin.ext
    match a with
    | ⟨0, _⟩ => show win0_3.index t (0 : Fin 2) * 512 + 1 * (j 0).val = win0_5.index t (0 : Fin 2) * 512 + 1 * (j 0).val; omega
    | ⟨1, _⟩ => show win0_3.index t (1 : Fin 2) * 1024 + 1 * (j 1).val = win0_5.index t (1 : Fin 2) * 1024 + 1 * (j 1).val; omega
  have g3 : iblk m c 3 t j = V m c main_v39 (((cfg0.win 5).blk t).view.emb j) := by
    show V m c main_v39 (((cfg0.win 3).blk t).view.emb j) = _
    rw [h3]
  have key : pushY (F := F) (iblk m c 0 t j) (iblk m c 1 t j) (iblk m c 2 t j) (iblk m c 3 t j)
      = tableY (V m c main_v36) (V m c main_v37) (V m c main_v38) (V m c main_v39) (((cfg0.win 5).blk t).view.emb j) := by
    rw [g0, g1, g2, g3]
  exact key

/-- An entry of the table lies in point t's band of result 0 iff each coordinate is in the band's range. -/
theorem mem_band4 (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v40_0).slice (win0_4.rect t)).set ↔ _
  rw [View.set_slice_whole, Rect.mem_set_unit]
  exact Iff.rfl

theorem mem_band5 (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v40_1).slice (win0_5.rect t)).set ↔ _
  rw [View.set_slice_whole, Rect.mem_set_unit]
  exact Iff.rfl

/-- Row r of the table is in the band of the point whose row-band index is r / 512: the bands tile result 0. -/
theorem tiled4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_band4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem tiled5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := onto5 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_band5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the region result 0 is the x-force table of the four operands as the region found them. -/
theorem final4 (c : Dev nD) : (dats m 0 c).arrAt 4 cfg0.N
    = tableX (V m c main_v36) (V m c main_v37) (V m c main_v38) (V m c main_v39) :=
  (dats m 0 c).arrAt_eq_of_cover 4 _ (fun t _ => flushed4_eq m c t) tiled4

/-- And result 1 the y-force table. -/
theorem final5 (c : Dev nD) : (dats m 0 c).arrAt 5 cfg0.N
    = tableY (V m c main_v36) (V m c main_v37) (V m c main_v38) (V m c main_v39) :=
  (dats m 0 c).arrAt_eq_of_cover 5 _ (fun t _ => flushed5_eq m c t) tiled5

end Cert.KernelIdeal.Blocks

end
-- ==== Proof.LibConcatPair.lean ====
/-
  Joining two lists end to end along an axis is a function of the two lists: equal pieces give equal joins.
-/
import Idealize.ShloMosaic.PureOps.ShapeOps

namespace Cert.LibConcatPair

open Idealize.ShloMosaic

/-- A two-piece concatenate with each piece replaced by an equal one. -/
theorem concat_pair_congr {α : Type} {t s₁ s₂ : Shape} (a : Fin t.rank) {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.LibConcatPair
-- ==== Proof.KernelHost.lean ====
/-
  The host lines of the kernel program around its one region, as functions of the five argument arrays.

  Before the region: the centre tables cx = pos[0:N] + (1/2) w and cy = pos[N:2N] + (1/2) h, and for each
  of the two index lists the centres it picks out of each table (an index below zero first wrapped by N, as
  the program does), each list of 16777216 picked values then arranged as a [16384, 1024] table.

  After the region: the two result tables flattened to lists fx and fy, and the energy of the two lists

      sum over the 2N entries of | concat (ex, ey) |,   ex = 0 scattered-plus fx at src, minus fx at dst,

  and ey the same of fy. `total` is the whole program as one function of the five arguments: the energy of
  the force lists pushX, pushY of the picked centres.
-/
import proofs.«123012_j40604620816577_1_alg».proof.Proof.Gen.KernelIdeal.Frame
import proofs.«123012_j40604620816577_1_alg».proof.Proof.PairForce
import proofs.«123012_j40604620816577_1_alg».proof.Proof.LibConcatPair
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo
open Cert.PairForce Cert.LibConcatPair

variable {F : FTy → Type} [FloatOps F]

/-- The x centres: the first half of pos plus half the widths. -/
def centreX (pos : S2097152.Idx → Elt F .f32) (w : S1048576.Idx → Elt F .f32) : S1048576.Idx → Elt F .f32 :=
  addf (extractStridedSlice S1048576 ![0] pos slices_S2097152_S1048576_0)
    (mulf (broadcastInDim S1048576 ![] bcast_S_S1048576 (constant S_ .f32 0x3F000000#32)) w)

/-- The y centres: the second half of pos plus half the heights. -/
def centreY (pos : S2097152.Idx → Elt F .f32) (h : S1048576.Idx → Elt F .f32) : S1048576.Idx → Elt F .f32 :=
  addf (extractStridedSlice S1048576 ![1048576] pos slices_S2097152_S1048576_1048576)
    (mulf (broadcastInDim S1048576 ![] bcast_S_S1048576 (constant S_ .f32 0x3F000000#32)) h)

/-- An index list as the gathers and scatters take it: a negative index wrapped by N, one index per row. -/
def wrapped (ix : S16777216.Idx → BitVec 32) : S16777216x1.Idx → BitVec 32 :=
  broadcastInDim S16777216x1 ![0] bcast_S16777216_S16777216x1_0
    (select (cmpi .slt ix (broadcastInDim S16777216 ![] bcast_S_S16777216 (constantI S_ 32 0#32)))
      (addi ix (broadcastInDim S16777216 ![] bcast_S_S16777216 (constantI S_ 32 1048576#32))) ix)

/-- The entries of a table of N centres that an index list picks. -/
def picked (tab : S1048576.Idx → Elt F .f32) (ix : S16777216.Idx → BitVec 32) : S16777216.Idx → Elt F .f32 :=
  Host.gather gather_S1048576_S16777216x1_S16777216_n_0_n_n_0_1_1 tab (wrapped ix)

/-- One force component accumulated on the nodes: from zero, plus f at the first endpoints, minus f at the second. -/
def onNodes (f : S16777216.Idx → Elt F .f32) (src dst : S16777216.Idx → BitVec 32) : S1048576.Idx → Elt F .f32 :=
  Host.scatterAdd scatter_S1048576_S16777216x1_S16777216_n_0_0_1
    (Host.scatterAdd scatter_S1048576_S16777216x1_S16777216_n_0_0_1
      (broadcastInDim S1048576 ![] bcast_S_S1048576 (constant S_ .f32 0x00000000#32)) (wrapped src) f)
    (wrapped dst) (Host.negf f)

/-- The energy of the two force lists: the sum of the absolute values of both accumulated components. -/
def energy (fx fy : S16777216.Idx → Elt F .f32) (src dst : S16777216.Idx → BitVec 32) : S_.Idx → Elt F .f32 :=
  Host.reduceAdd (Host.absf (concatenate S2097152 0 [⟨S1048576, onNodes fx src dst⟩, ⟨S1048576, onNodes fy src dst⟩]
    concatenates_S1048576_S1048576_S2097152_d0)) (constant S_ .f32 0x00000000#32) reducesTo_S2097152_S_d0 h_S_

/-- The x forces of all pairs, from the five arguments. -/
def forceX (pos : S2097152.Idx → Elt F .f32) (w h : S1048576.Idx → Elt F .f32) (src dst : S16777216.Idx → BitVec 32) :
    S16777216.Idx → Elt F .f32 :=
  fun i => pushX (picked (centreX pos w) src i) (picked (centreX pos w) dst i)
    (picked (centreY pos h) src i) (picked (centreY pos h) dst i)

/-- The y forces of all pairs. -/
def forceY (pos : S2097152.Idx → Elt F .f32) (w h : S1048576.Idx → Elt F .f32) (src dst : S16777216.Idx → BitVec 32) :
    S16777216.Idx → Elt F .f32 :=
  fun i => pushY (picked (centreX pos w) src i) (picked (centreX pos w) dst i)
    (picked (centreY pos h) src i) (picked (centreY pos h) dst i)

/-- The program's one result as a function of its five arguments. -/
def total (pos : S2097152.Idx → Elt F .f32) (w h : S1048576.Idx → Elt F .f32) (src dst : S16777216.Idx → BitVec 32) :
    S_.Idx → Elt F .f32 :=
  energy (forceX pos w h src dst) (forceY pos w h src dst) src dst

variable (m : (ℓ : Loc nD τ sig) → Buf (Elt F) ℓ)

/-! ## Before the region: the four operand tables -/

set_option maxHeartbeats 8000000 in
/-- Operand 0 is the table of the x centres picked by the first index list. -/
theorem table_xs (c : Dev nD) : (V m c main_v36 : S16384x1024.Idx → Elt F .f32)
    = shapeCast S16384x1024 (picked (centreX (m ((c : Thread nD τ).loc main_arg0)) (m ((c : Thread nD τ).loc main_arg1)))
        (m ((c : Thread nD τ).loc main_arg3))) shapeCasts_S16777216_S16384x1024 := by
  show StableHlo.after hostOps0 (fun b => m (c, b)) (Proc.devRef .tc main_v36) = _
  after_results_simp
  rfl

set_option maxHeartbeats 8000000 in
/-- Operand 1: the x centres picked by the second index list. -/
theorem table_xd (c : Dev nD) : (V m c main_v37 : S16384x1024.Idx → Elt F .f32)
    = shapeCast S16384x1024 (picked (centreX (m ((c : Thread nD τ).loc main_arg0)) (m ((c : Thread nD τ).loc main_arg1)))
        (m ((c : Thread nD τ).loc main_arg4))) shapeCasts_S16777216_S16384x1024 := by
  show StableHlo.after hostOps0 (fun b => m (c, b)) (Proc.devRef .tc main_v37) = _
  after_results_simp
  rfl

set_option maxHeartbeats 8000000 in
/-- Operand 2: the y centres picked by the first index list. -/
theorem table_ys (c : Dev nD) : (V m c main_v38 : S16384x1024.Idx → Elt F .f32)
    = shapeCast S16384x1024 (picked (centreY (m ((c : Thread nD τ).loc main_arg0)) (m ((c : Thread nD τ).loc main_arg2)))
        (m ((c : Thread nD τ).loc main_arg3))) shapeCasts_S16777216_S16384x1024 := by
  show StableHlo.after hostOps0 (fun b => m (c, b)) (Proc.devRef .tc main_v38) = _
  after_results_simp
  rfl

set_option maxHeartbeats 8000000 in
/-- Operand 3: the y centres picked by the second index list. -/
theorem table_yd (c : Dev nD) : (V m c main_v39 : S16384x1024.Idx → Elt F .f32)
    = shapeCast S16384x1024 (picked (centreY (m ((c : Thread nD τ).loc main_arg0)) (m ((c : Thread nD τ).loc main_arg2)))
        (m ((c : Thread nD τ).loc main_arg4))) shapeCasts_S16777216_S16384x1024 := by
  show StableHlo.after hostOps0 (fun b => m (c, b)) (Proc.devRef .tc main_v39) = _
  after_results_simp
  rfl

/-! ## After the region: the energy of the two flattened result tables -/

set_option maxHeartbeats 16000000 in
/-- The lines after the region leave in the result buffer the energy of the two result tables, flattened, over
    the two index lists as launched: those lines read the region's two result arrays and the two index arguments,
    which no line before them writes. -/
theorem tail_energy (c : Dev nD) : Pipeline.afterTail₀ cfgs (dats m) 0 (V0 m) [hostOps1] c main_v77
    = energy (shapeCast S16777216 ((dats m 0 c).arrAt 4 cfg0.N) shapeCasts_S16384x1024_S16777216)
        (shapeCast S16777216 ((dats m 0 c).arrAt 5 cfg0.N) shapeCasts_S16384x1024_S16777216)
        (m ((c : Thread nD τ).loc main_arg3)) (m ((c : Thread nD τ).loc main_arg4)) := by
  unfold Pipeline.afterTail₀
  have e4 : Pipeline.withArrays (cfgs 0).spec c (V0 m c) (fun w => (dats m 0 c).arrAt w (cfgs 0).N) (Proc.devRef .tc main_v40_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v40_1)
      = (dats m 0 c).arrAt 5 cfg0.N := Pipeline.withArrays_arr spec0 launch0.win.arr_inj c _ _ 5
  have es : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have ed : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  generalize Pipeline.withArrays (cfgs 0).spec c (V0 m c) (fun w => (dats m 0 c).arrAt w (cfgs 0).N) = W at e4 e5 es ed ⊢
  show StableHlo.after hostOps1 W (Proc.devRef .tc main_v77) = _
  after_results_simp
  unfold energy
  refine congrArg (fun z => Host.reduceAdd (Host.absf z) (constant S_ .f32 0x00000000#32) reducesTo_S2097152_S_d0 h_S_)
    (concat_pair_congr _ _ ?_ ?_)
  · after_results_simp
    rw [e4, es, ed]
    rfl
  · after_results_simp
    rw [e5, es, ed]
    rfl

end Cert.KernelIdeal.Host

end
-- ==== Proof.LibReshapeMap.lean ====
/-
  A function applied entry by entry does not see how the entries are arranged: rearrange four lists into
  another shape with the same row-major order, apply a four-argument function entry by entry, and undo the
  rearrangement; the result is the function applied entry by entry to the lists as they were.
-/
import Idealize.ShloMosaic.Lib.Pipeline.Value

namespace Cert.LibReshapeMap

open Idealize.ShloMosaic

/-- Reshape the four operands, map `f` over the entries, reshape back: `f` mapped over the operands. -/
theorem shapeCast_map4 {s t : Shape} {α β : Type} (f : α → α → α → α → β) (a b c d : s.Idx → α)
    (h : s.ShapeCasts t) (h' : t.ShapeCasts s) :
    shapeCast s (fun j => f (shapeCast t a h j) (shapeCast t b h j) (shapeCast t c h j) (shapeCast t d h j)) h'
      = fun i => f (a i) (b i) (c i) (d i) := by
  funext i
  show f (shapeCast s (shapeCast t a h) h' i) (shapeCast s (shapeCast t b h) h' i)
      (shapeCast s (shapeCast t c h) h' i) (shapeCast s (shapeCast t d h) h' i) = _
  rw [shapeCast_shapeCast, shapeCast_shapeCast, shapeCast_shapeCast, shapeCast_shapeCast]

end Cert.LibReshapeMap
-- ==== Proof.KernelEnergy.lean ====
/-
  The kernel program's one result as a function of its five arguments.

  The region leaves in its two result arrays the x- and y-force tables of the four operand tables
  (KernelBlocks); each operand table is a list of picked centres arranged as [16384, 1024] (KernelHost);
  a function applied entry by entry does not see the arrangement, so the flattened result tables are the
  force lists pushX, pushY of the picked centres; and the lines after the region leave the energy of those
  two lists (KernelHost). Hence every execution ends with the result buffer at `total` of the arguments.
-/
import proofs.«123012_j40604620816577_1_alg».proof.Proof.KernelBlocks
import proofs.«123012_j40604620816577_1_alg».proof.Proof.KernelHost
import proofs.«123012_j40604620816577_1_alg».proof.Proof.LibReshapeMap

set_option maxRecDepth 16384

noncomputable section

namespace Cert.KernelIdeal.Energy

open Cert.KernelIdeal Cert.KernelIdeal.Gen Cert.KernelIdeal.Blocks Cert.KernelIdeal.Host
open Idealize.ShloMosaic Idealize.ShloMosaic.TcCoe Idealize.SL.Sem
open Cert.PairForce Cert.LibReshapeMap

variable {F : FTy → Type} [FloatOps F]
variable (m : (ℓ : Loc nD τ sig) → Buf (Elt F) ℓ) (ρ : Dev nD → PrngReg)

/-- Result 0, flattened, is the list of x forces of the pairs. -/
theorem flat_x (c : Dev nD) :
    shapeCast S16777216 ((dats m 0 c).arrAt 4 cfg0.N) shapeCasts_S16384x1024_S16777216
      = forceX (m ((c : Thread nD τ).loc main_arg0)) (m ((c : Thread nD τ).loc main_arg1)) (m ((c : Thread nD τ).loc main_arg2))
          (m ((c : Thread nD τ).loc main_arg3)) (m ((c : Thread nD τ).loc main_arg4)) := by
  rw [final4, table_xs, table_xd, table_ys, table_yd]
  exact shapeCast_map4 (pushX (F := F)) _ _ _ _ _ _

/-- Result 1, flattened, is the list of y forces. -/
theorem flat_y (c : Dev nD) :
    shapeCast S16777216 ((dats m 0 c).arrAt 5 cfg0.N) shapeCasts_S16384x1024_S16777216
      = forceY (m ((c : Thread nD τ).loc main_arg0)) (m ((c : Thread nD τ).loc main_arg1)) (m ((c : Thread nD τ).loc main_arg2))
          (m ((c : Thread nD τ).loc main_arg3)) (m ((c : Thread nD τ).loc main_arg4)) := by
  rw [final5, table_xs, table_xd, table_ys, table_yd]
  exact shapeCast_map4 (pushY (F := F)) _ _ _ _ _ _

/-- What the lines after the region leave in the result buffer is `total` of the arguments. -/
theorem result_total (c : Dev nD) : Pipeline.afterTail₀ cfgs (dats m) 0 (V0 m) [hostOps1] c main_v77
    = total (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_energy, flat_x, flat_y]
  rfl

/-- Every weakly fair execution of the kernel program terminates with its result at `total` of the arguments
    and the arguments unchanged. -/
theorem run_total : θ_run defs (onTc (τ := τ) (main (F := F))) ⟨m, fun _ => 0, ρ⟩ fun r => ∀ c : Dev nD,
      r.2.mem ((c.tc : Thread nD τ).loc main_v77)
        = total (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v77 (Pipeline.mem_restRefs_of main_v77 (by decide) (by decide))).trans (result_total m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Energy

end
-- ==== Proof.RefForces.lean ====
/-
  The reference program's result is the same function `total` of the five arguments.

  Its last lines are the energy of its two force lists, line for line the lines the kernel program runs after
  its region. Its force lists are the reference's own entry-by-entry chain on the picked centres; read at an
  entry over the extended reals, where the host's absolute value and quotient are the kernel's, that chain is
  pushX (resp. pushY) of the four picked centres.
-/
import proofs.«123012_j40604620816577_1_alg».proof.Proof.Gen.ReferenceIdeal.Run
import proofs.«123012_j40604620816577_1_alg».proof.Proof.Gen.ReferenceIdeal.Read
import proofs.«123012_j40604620816577_1_alg».proof.Proof.PairForce
import proofs.«123012_j40604620816577_1_alg».proof.Proof.KernelHost

set_option maxRecDepth 16384

noncomputable section

namespace Cert.ReferenceIdeal.Forces

open Cert.ReferenceIdeal Cert.ReferenceIdeal.Gen Cert.ReferenceIdeal.Read Idealize.ShloMosaic Idealize.ShloMosaic.TcCoe Idealize.SL.Sem
open Cert.PairForce

/-- The reference's closing lines are the energy of its two force lists over the two index lists. -/
theorem energy_eq {F : FTy → Type} [FloatOps F] (x0 : (⟨S2097152, .f32⟩ : BufTy).Contents (Elt F))
    (x1 x2 : (⟨S1048576, .f32⟩ : BufTy).Contents (Elt F)) (x3 x4 : (⟨S16777216, .i32⟩ : BufTy).Contents (Elt F)) :
    val_main_v90 (F := F) x0 x1 x2 x3 x4
      = Cert.KernelIdeal.Host.energy (F := F) (val_main_v53 (F := F) x0 x1 x2 x3 x4) (val_main_v55 (F := F) x0 x1 x2 x3 x4) x3 x4 := rfl

/-- Over the extended reals the reference's x-force list is pushX of the picked centres, entry by entry. -/
theorem fx_eq (x0 : (⟨S2097152, .f32⟩ : BufTy).Contents (Elt Ideal))
    (x1 x2 : (⟨S1048576, .f32⟩ : BufTy).Contents (Elt Ideal)) (x3 x4 : (⟨S16777216, .i32⟩ : BufTy).Contents (Elt Ideal)) :
    val_main_v53 (F := Ideal) x0 x1 x2 x3 x4 = Cert.KernelIdeal.Host.forceX (F := Ideal) x0 x1 x2 x3 x4 := rfl

/-- And its y-force list pushY. -/
theorem fy_eq (x0 : (⟨S2097152, .f32⟩ : BufTy).Contents (Elt Ideal))
    (x1 x2 : (⟨S1048576, .f32⟩ : BufTy).Contents (Elt Ideal)) (x3 x4 : (⟨S16777216, .i32⟩ : BufTy).Contents (Elt Ideal)) :
    val_main_v55 (F := Ideal) x0 x1 x2 x3 x4 = Cert.KernelIdeal.Host.forceY (F := Ideal) x0 x1 x2 x3 x4 := rfl

/-- So the reference's result is `total` of its arguments. -/
theorem total_eq (x0 : (⟨S2097152, .f32⟩ : BufTy).Contents (Elt Ideal))
    (x1 x2 : (⟨S1048576, .f32⟩ : BufTy).Contents (Elt Ideal)) (x3 x4 : (⟨S16777216, .i32⟩ : BufTy).Contents (Elt Ideal)) :
    val_main_v90 (F := Ideal) x0 x1 x2 x3 x4 = Cert.KernelIdeal.Host.total (F := Ideal) x0 x1 x2 x3 x4 := by
  rw [energy_eq, fx_eq, fy_eq]
  rfl

end Cert.ReferenceIdeal.Forces

end
-- ==== Proof.lean ====
/-
  The kernel computes a pairwise repulsion energy: from the node positions and sizes it forms the centre
  tables, picks the centres of the 16777216 candidate pairs, applies to every pair the force law
      pushX, pushY = (dx, dy) * (1/2) / (dx*dx + dy*dy + eps)  inside the 16-unit window, 0 outside,
  accumulates the forces on the nodes with opposite signs at the two endpoints, and sums the absolute values.
  Its Pallas region only evaluates the force law, on the pairs arranged as a [16384, 1024] table; the
  reference evaluates the same law on the flat list. Both programs are one function, `total`, of the five
  arguments over the extended reals: the law acts entry by entry, so the arrangement is not seen, and every
  other line is the same line in both programs. No algebraic law is used and the precondition is never opened.

  frame_Kernel, frame_KernelIdeal: the generated frames. frame_ReferenceIdeal: the generated run of the
  reference with the result dropped. preserves: the ideal pass rewrote nothing. algebraic: the two runs, both
  ending at `total` of arguments that agree.
-/
import proofs.«123012_j40604620816577_1_alg».proof.Defs
import proofs.«123012_j40604620816577_1_alg».proof.Proof.Gen.Kernel
import proofs.«123012_j40604620816577_1_alg».proof.Proof.Gen.Kernel.Skeleton
import proofs.«123012_j40604620816577_1_alg».proof.Proof.Gen.Kernel.Launch
import proofs.«123012_j40604620816577_1_alg».proof.Proof.Gen.Kernel.Points
import proofs.«123012_j40604620816577_1_alg».proof.Proof.Gen.Kernel.Frame
import proofs.«123012_j40604620816577_1_alg».proof.Proof.Gen.KernelIdeal
import proofs.«123012_j40604620816577_1_alg».proof.Proof.Gen.KernelIdeal.Skeleton
import proofs.«123012_j40604620816577_1_alg».proof.Proof.Gen.KernelIdeal.Launch
import proofs.«123012_j40604620816577_1_alg».proof.Proof.Gen.KernelIdeal.Points
import proofs.«123012_j40604620816577_1_alg».proof.Proof.Gen.KernelIdeal.Frame
import proofs.«123012_j40604620816577_1_alg».proof.Proof.Gen.ReferenceIdeal
import proofs.«123012_j40604620816577_1_alg».proof.Proof.Gen.ReferenceIdeal.Run
import proofs.«123012_j40604620816577_1_alg».proof.Proof.Gen.ReferenceIdeal.Read
import proofs.«123012_j40604620816577_1_alg».proof.Proof.Gen.Pre_finite_inputs
import proofs.«123012_j40604620816577_1_alg».proof.Proof.KernelEnergy
import proofs.«123012_j40604620816577_1_alg».proof.Proof.RefForces
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `total` of their arguments, and the arguments agree. -/
theorem algebraic : Cert.algebraic_KernelIdeal_ReferenceIdeal := by
  intro m ρ m' ρ' _ hagree
  refine ⟨_, Cert.KernelIdeal.Energy.run_total (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.ReferenceIdeal.Forces.total_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
